-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1x4096x2048 : Shape := ⟨3, ![1, 4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x4096x2048 : S_.BroadcastsInDim S1x4096x2048 (![] : Fin 0 → Fin S1x4096x2048.rank)
  reducesTo_S1x4096x2048_S_d0_1_2 : S1x4096x2048.ReducesTo [0, 1, 2] S_

variable [Facts]

def fn {F : FTy → Type} [FloatOps F] (main_arg0 : FVec F S4096x2048 .f32) (main_arg1 : FVec F S1x4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x4096x2048 .f32 := Host.absf main_arg1
  let main_cst_0 : FVec F S_ .f32 := constant S_ .f32 0x7F800000#32
  let main_v5 : FVec F S1x4096x2048 .f32 := broadcastInDim S1x4096x2048 ![] bcast_S_S1x4096x2048 main_cst_0
  let main_v6 : IVec S1x4096x2048 1 := cmpf .olt main_v4 main_v5
  let main_c_1 : IVec S_ 1 := constantI S_ 1 1#1
  let main_v7 : IVec S_ 1 := (fun x v => Host.reduce IntOp.andi x v reducesTo_S1x4096x2048_S_d0_1_2 h_S_) main_v6 main_c_1
  let main_v8 : IVec S_ 1 := andi main_v3 main_v7
  main_v8
-- ==== Kernel.lean ====
abbrev S4096x2048 : Shape := ⟨2, ![4096, 2048]⟩
abbrev S1x4096x2048 : Shape := ⟨3, ![1, 4096, 2048]⟩
abbrev S4096x4096 : Shape := ⟨2, ![4096, 4096]⟩
abbrev S512x2048 : Shape := ⟨2, ![512, 2048]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x4096x2048, .f32⟩
  | .hbm, ⟨2, _⟩ => ⟨S4096x2048, .f32⟩
  | .hbm, ⟨3, _⟩ => ⟨S4096x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x512, .f32⟩
  | .local _ .vmem, ⟨5, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x4096x2048_S4096x2048 : S1x4096x2048.ShapeCasts S4096x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S1x4096x2048 : Shape := ⟨3, ![1, 4096, 2048]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x4096x2048, .f32⟩
  | .hbm, ⟨2, _⟩ => ⟨S4096x2048, .f32⟩
  | .hbm, ⟨3, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S1x4096x2048_S4096x2048 : S1x4096x2048.ShapeCasts S4096x2048
  dot_S4096x2048_S4096x2048_S4096x4096_1_1_0_0_n_n_wf : DotDims.WF S4096x2048 S4096x2048 S4096x4096 [1] [1] [0] [0] [] []

variable [Facts₀]

def dot_S4096x2048_S4096x2048_S4096x4096_1_1_0_0_n_n : DotDims S4096x2048 S4096x2048 S4096x4096 where
  lhsContracting := [1]
  rhsContracting := [1]
  lhsNonContracting := [0]
  rhsNonContracting := [0]
  lhsBatch := []
  rhsBatch := []
  wf := dot_S4096x2048_S4096x2048_S4096x4096_1_1_0_0_n_n_wf

class Facts : Prop extends Facts₀ where

variable [Facts]
-- ==== Proof.LibRowDot.lean ====
/-
  The product of ROWS BY ROWS read at an entry on the extended reals: an [m, k] factor against an [n, k] factor, both
  contracted along their second axis (the product of A with the transpose of B, as a linear layer spells it with its
  weight stored [out, in]). Into a zero accumulator, entry (a, b) is the sum over c of A(a, c) · B(b, c).
-/
import Idealize.ShloMosaic.Lib.ValueIdx
import Idealize.ShloMosaic.PureOps.Ideal.Laws

noncomputable section

open scoped BigOperators

namespace Cert.RowDot

open Idealize.ShloMosaic Idealize.ShloMosaic.ValueIdx

/-- The dimension numbers of the product of rows by rows: both factors contracted along axis 1. -/
abbrev rowDot (m n k : Nat) (wf : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ where
  lhsContracting := [1]
  rhsContracting := [1]
  lhsNonContracting := [0]
  rhsNonContracting := [0]
  lhsBatch := []
  rhsBatch := []
  wf := wf

/-- Rows by rows, into the zero accumulator: entry (a, b) is the sum over c of A(a, c) · B(b, c). -/
theorem matmul_rowDot_apply {m n k : Nat} {φ₁ φ₂ : FTy}
    (wf : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (a : Fin m) (b : Fin n) :
    matmul (rowDot m n k wf) prec A B (constant ⟨2, ![m, n]⟩ .f32 0x00000000#32) (ix2 a b)
      = ∑ c : Fin k, A (ix2 a c) * B (ix2 b c) := by
  show FloatOps.matmul (rowDot m n k wf) prec A B (constant ⟨2, ![m, n]⟩ .f32 0x00000000#32) (ix2 a b) = _
  rw [Ideal.matmul_constant_zero_apply, ← Equiv.sum_comp (contrEquiv1 (rowDot m n k wf) k rfl rfl).symm]
  refine Finset.sum_congr rfl fun c _ => ?_
  have c2 := contrEquiv1_symm_val (rowDot m n k wf) k rfl rfl c
  have l2 : (rowDot m n k wf).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (rowDot m n k wf).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowDot

end
-- ==== Proof.BlockProduct.lean ====
/-
  What the kernel body computes on one pair of blocks, read at an entry. The body loads a block of 512 rows of x and
  a block of 512 rows of w (each row of length 2048), narrows both to bf16, and multiplies rows by rows into a zero
  accumulator. On the extended reals the narrowing is the identity and the accumulator contributes nothing, so entry
  (p, q) of the 512 by 512 result is the sum over k of (row p of the first block)(k) · (row q of the second block)(k).
-/
import proofs.«122869_j29678224016022_1_alg».proof.Proof.Gen.KernelIdeal.Skeleton
import proofs.«122869_j29678224016022_1_alg».proof.Proof.LibRowDot
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- The body's dimension numbers are those of the product of rows by rows: both factors contracted along axis 1. -/
theorem dims_eq : dot_S512x2048_S512x2048_S512x512_1_1_0_0_n_n
    = Cert.RowDot.rowDot 512 512 2048 dot_S512x2048_S512x2048_S512x512_1_1_0_0_n_n.wf := rfl

/-- Entry (p, q) of the body's result on blocks x0 and x1 is the sum over k of x0(p, k) · x1(q, k). -/
theorem pay_apply (x0 x1 : Vec Ideal S512x2048 .f32) (p q : Fin 512) :
    k0_pay1 (F := Ideal) x0 x1 (ix2 p q) = ∑ k : Fin 2048, x0 (ix2 p k) * x1 (ix2 q k) := by
  unfold k0_pay1
  rw [dims_eq]
  refine (Cert.RowDot.matmul_rowDot_apply _ none _ _ p q).trans ?_
  refine Finset.sum_congr rfl fun k _ => ?_
  rw [truncf_apply, truncf_apply, shapeCast_self]

end Cert.KernelIdeal.BlockValue

end
-- ==== Proof.RowProduct.lean ====
/-
  The product of rows by rows as ONE function of two arrays. For x of shape [4096, 2048] and w of shape [4096, 2048],
  entry (b, o) of the [4096, 4096] result is the sum over k of x(b, k) · w(o, k): the product of x with the transpose
  of w. On the extended reals addition and multiplication are commutative and associative, so the order in which a
  program adds the 2048 products of an entry does not matter, and no finiteness of the entries is needed.
-/
import Idealize.ShloMosaic.Lib.ValueIdx
import Idealize.ShloMosaic.PureOps.Ideal

noncomputable section

open scoped BigOperators

namespace Cert.RowProduct

open Idealize.ShloMosaic Idealize.ShloMosaic.ValueIdx

/-- Entry (b, o) of the product of rows by rows: the sum over k of x(b, k) · w(o, k). -/
def rowProduct (x w : FVec Ideal ⟨2, ![4096, 2048]⟩ .f32) : FVec Ideal ⟨2, ![4096, 4096]⟩ .f32 :=
  fun i => ∑ k : Fin 2048, x (ix2 (i 0) k) * w (ix2 (i 1) k)

/-- The product read at explicit coordinates. -/
theorem rowProduct_apply (x w : FVec Ideal ⟨2, ![4096, 2048]⟩ .f32) (b o : Fin 4096) :
    rowProduct x w (ix2 b o) = ∑ k : Fin 2048, x (ix2 b k) * w (ix2 o k) := rfl

end Cert.RowProduct

end
-- ==== Proof.KernelProduct.lean ====
/-
  The kernel's result array is the product of rows by rows. The grid has 8 by 8 points; point (i, j) stages rows
  512 i .. 512 i + 511 of x, rows 512 j .. 512 j + 511 of the reshaped matrix w, and writes the 512 by 512 block (i, j)
  of the output. Entry (p, q) of what it writes is the sum over k of x(512 i + p, k) · w(512 j + q, k), which is entry
  (512 i + p, 512 j + q) of the product of rows by rows of the whole arrays; the 64 blocks tile the output, so the whole
  output array ends at that product.
-/
import proofs.«122869_j29678224016022_1_alg».proof.Proof.Gen.KernelIdeal.Value
import proofs.«122869_j29678224016022_1_alg».proof.Proof.BlockProduct
import proofs.«122869_j29678224016022_1_alg».proof.Proof.RowProduct
import Idealize.ShloMosaic.Lib.StableHlo.Run

set_option maxRecDepth 16384

noncomputable section

open scoped BigOperators

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.RowProduct (rowProduct)

variable (m : (ℓ : Loc nD τ sig) → Buf (Elt Ideal) ℓ) (ρ : Dev nD → PrngReg)

/-- The body's load and store rectangles start at the origin of their buffers. -/
theorem origin_zero : (![0, 0] : Fin 2 → Nat) = fun _ => 0 := funext fun a => by fin_cases a <;> rfl

/-- The printed index maps, decided over the 64 grid points: the block of x follows the output block's row index,
    the block of w follows the output block's column index, both take all 2048 columns, and the output's block
    indices stay below 8. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every one of the 8 by 8 output blocks is some grid point's. -/
theorem index_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- Row p of the block of x at point t is row r of x, where r is p below the output block's first row. -/
theorem x_block_read (c : Dev nD) (t : Fin cfg0.N) (p : Fin 512) (k : Fin 2048) (r : Fin 4096)
    (hr : r.val = win0_2.index t (0 : Fin 2) * 512 + p.val) :
    iblk m c 0 t (ix2 p k) = V m c main_arg0 (ix2 r k) := by
  show V m c main_arg0 (((cfg0.win 0).blk t).view.emb (ix2 p k)) = V m c main_arg0 (ix2 r k)
  refine congrArg _ (funext fun a => Fin.ext ?_)
  obtain ⟨e0, e1, -, -, -, -⟩ := index_facts t
  match a with
  | ⟨0, _⟩ => show win0_0.index t (0 : Fin 2) * 512 + 1 * p.val = r.val; omega
  | ⟨1, _⟩ => show win0_0.index t (1 : Fin 2) * 2048 + 1 * k.val = k.val; omega

/-- Row q of the block of w at point t is row r of w, where r is q below the output block's first column. -/
theorem w_block_read (c : Dev nD) (t : Fin cfg0.N) (q : Fin 512) (k : Fin 2048) (r : Fin 4096)
    (hr : r.val = win0_2.index t (1 : Fin 2) * 512 + q.val) :
    iblk m c 1 t (ix2 q k) = V m c main_v0 (ix2 r k) := by
  show V m c main_v0 (((cfg0.win 1).blk t).view.emb (ix2 q k)) = V m c main_v0 (ix2 r k)
  refine congrArg _ (funext fun a => Fin.ext ?_)
  obtain ⟨-, -, e2, e3, -, -⟩ := index_facts t
  match a with
  | ⟨0, _⟩ => show win0_1.index t (0 : Fin 2) * 512 + 1 * q.val = r.val; omega
  | ⟨1, _⟩ => show win0_1.index t (1 : Fin 2) * 2048 + 1 * k.val = k.val; omega

/-- The body's result at any index of its 512 by 512 block. -/
theorem pay_at (x0 x1 : Vec Ideal S512x2048 .f32) (j : S512x512.Idx) :
    k0_pay1 (F := Ideal) x0 x1 j = ∑ k : Fin 2048, x0 (ix2 (j 0) k) * x1 (ix2 (j 1) k) :=
  (congrArg (k0_pay1 (F := Ideal) x0 x1) (eq_ix2 j)).trans (Cert.KernelIdeal.BlockValue.pay_apply x0 x1 (j 0) (j 1))

/-- What point t writes back is block t of the product of rows by rows of x and w as the region finds them. -/
theorem flushed_eq (c : Dev nD) (t : Fin cfg0.N) :
    (dats m 0 c).flushed 2 t
      = ((cfg0.win 2).blk t).view.read (Elt Ideal) (rowProduct (V m c main_arg0) (V m c main_v0)) := by
  rw [Value.flushed2]
  unfold out0_2
  rw [View.canon_unit_zero origin_zero]
  simp only [View.ld_unit_zero (S := S512x2048) origin_zero]
  funext j
  show k0_pay1 (F := Ideal) (iblk m c 0 t) (iblk m c 1 t) j
    = rowProduct (V m c main_arg0) (V m c main_v0) (((cfg0.win 2).blk t).view.emb j)
  refine (pay_at (iblk m c 0 t) (iblk m c 1 t) j).trans ?_
  unfold Cert.RowProduct.rowProduct
  refine Finset.sum_congr rfl fun k _ => ?_
  have h0 : ((((cfg0.win 2).blk t).view.emb j) 0).val = win0_2.index t (0 : Fin 2) * 512 + (j 0).val := by
    show win0_2.index t (0 : Fin 2) * 512 + 1 * (j 0).val = _; omega
  have h1 : ((((cfg0.win 2).blk t).view.emb j) 1).val = win0_2.index t (1 : Fin 2) * 512 + (j 1).val := by
    show win0_2.index t (1 : Fin 2) * 512 + 1 * (j 1).val = _; omega
  exact congrArg₂ (· * ·) (x_block_read m c t (j 0) k _ h0) (w_block_read m c t (j 1) k _ h1)

/-- An index of the output array is in point t's block iff each coordinate is in the block's range on its axis. -/
theorem mem_block (t : Fin cfg0.N) (i : S4096x4096.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v1).slice (win0_2.rect t)).set ↔ _
  rw [View.set_slice_whole, Rect.mem_set_unit]
  exact Iff.rfl

/-- The blocks tile the output: index (r, s) lies in the block of the point whose block indices are r / 512 and s / 512. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := index_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The output array after the run is the product of rows by rows of x and w as the region finds them. -/
theorem final (c : Dev nD) : (dats m 0 c).arrAt 2 cfg0.N = rowProduct (V m c main_arg0) (V m c main_v0) :=
  (dats m 0 c).arrAt_eq_of_cover 2 (rowProduct (V m c main_arg0) (V m c main_v0)) (fun t _ => flushed_eq m c t) covered

/-- The region finds w as the host's reshape of the matrix argument. -/
theorem reshaped (c : Dev nD) : (V m c main_v0 : S4096x2048.Idx → EReal)
    = shapeCast S4096x2048 (m ((c : Thread nD τ).loc main_arg1)) shapeCasts_S1x4096x2048_S4096x2048 := by
  dsimp only [Gen.V, Gen.hostOps0]; after_results; rfl

/-- The kernel's run with its result named: the output ends at the product of rows by rows of x and the reshaped
    matrix, the arguments unchanged. -/
theorem run : θ_run defs (onTc (τ := τ) (main (F := Ideal))) ⟨m, fun _ => 0, ρ⟩ fun r => ∀ c : Dev nD,
      r.2.mem ((c : Thread nD τ).loc main_v1)
        = rowProduct (m ((c : Thread nD τ).loc main_arg0))
            (shapeCast S4096x2048 (m ((c : Thread nD τ).loc main_arg1)) shapeCasts_S1x4096x2048_S4096x2048)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0, reshaped])), (h c).2⟩)
    (Value.run_blocks m ρ)

end Cert.KernelIdeal.ArrayValue

end
-- ==== Proof.ReferenceProduct.lean ====
/-
  The reference's result is the product of rows by rows. The host program reshapes the [1, 4096, 2048] matrix to
  w of shape [4096, 2048] and contracts axis 1 of x with axis 1 of w; on the extended reals that contraction at
  entry (b, o) is the sum over k of x(b, k) · w(o, k). The reshape is kept as it stands: both programs apply the same
  one to the same argument, so it never has to be read at an index.
-/
import proofs.«122869_j29678224016022_1_alg».proof.Proof.Gen.ReferenceIdeal.Read
import proofs.«122869_j29678224016022_1_alg».proof.Proof.RowProduct

noncomputable section

open scoped BigOperators

namespace Cert.ReferenceIdeal.RefValue

open Cert.ReferenceIdeal Cert.ReferenceIdeal.Gen Cert.ReferenceIdeal.Read Idealize.ShloMosaic Idealize.ShloMosaic.ValueIdx

/-- The contraction's left index at (i, k) is row i 0 of x at column k. -/
theorem left_index (i : S4096x4096.Idx) (k : Fin 2048) : lidx_main_v1 i k = ix2 (i 0) k :=
  funext fun a => Fin.ext (by match a with | ⟨0, _⟩ => rfl | ⟨1, _⟩ => rfl)

/-- The contraction's right index at (i, k) is row i 1 of w at column k. -/
theorem right_index (i : S4096x4096.Idx) (k : Fin 2048) : ridx_main_v1 i k = ix2 (i 1) k :=
  funext fun a => Fin.ext (by match a with | ⟨0, _⟩ => rfl | ⟨1, _⟩ => rfl)

/-- The host's contraction of x with the reshaped matrix is their product of rows by rows. -/
theorem result_eq (x0 : (⟨S4096x2048, .f32⟩ : BufTy).Contents (Elt Ideal)) (x1 : (⟨S1x4096x2048, .f32⟩ : BufTy).Contents (Elt Ideal)) :
    val_main_v1 (F := Ideal) x0 x1 = Cert.RowProduct.rowProduct x0 (val_main_v0 (F := Ideal) x1) := by
  funext i
  rw [val_main_v1_apply]
  unfold Cert.RowProduct.rowProduct
  refine Finset.sum_congr rfl fun k _ => ?_
  rw [left_index, right_index]
  rfl

end Cert.ReferenceIdeal.RefValue

end
-- ==== Proof.lean ====
/-
  The certificate's claims for the product of rows by rows, out(b, o) = sum over k of x(b, k) · matrix(0, o, k).
  The kernel tiles the [4096, 4096] output into 8 by 8 blocks of 512 by 512 and, per block, multiplies 512 rows of x by
  512 rows of the reshaped matrix on the matrix unit with bf16-narrowed factors and a zero accumulator; the reference
  contracts the whole arrays at once. On the extended reals narrowing is the identity and a sum does not depend on how
  it is grouped, so both programs end at one and the same function of the arguments (Proof/RowProduct.lean):
  the kernel by its blocks (Proof/BlockProduct.lean, Proof/KernelProduct.lean), the reference by its contraction read
  at an entry (Proof/ReferenceProduct.lean). No rewrite was applied when the kernel was idealized, so the
  idealization claim has nothing to state.
-/
import proofs.«122869_j29678224016022_1_alg».proof.Defs
import proofs.«122869_j29678224016022_1_alg».proof.Proof.Gen.Kernel
import proofs.«122869_j29678224016022_1_alg».proof.Proof.Gen.Kernel.Skeleton
import proofs.«122869_j29678224016022_1_alg».proof.Proof.Gen.Kernel.Launch
import proofs.«122869_j29678224016022_1_alg».proof.Proof.Gen.Kernel.Points
import proofs.«122869_j29678224016022_1_alg».proof.Proof.Gen.Kernel.Frame
import proofs.«122869_j29678224016022_1_alg».proof.Proof.Gen.KernelIdeal
import proofs.«122869_j29678224016022_1_alg».proof.Proof.Gen.KernelIdeal.Skeleton
import proofs.«122869_j29678224016022_1_alg».proof.Proof.Gen.KernelIdeal.Launch
import proofs.«122869_j29678224016022_1_alg».proof.Proof.Gen.KernelIdeal.Points
import proofs.«122869_j29678224016022_1_alg».proof.Proof.Gen.KernelIdeal.Frame
import proofs.«122869_j29678224016022_1_alg».proof.Proof.Gen.ReferenceIdeal
import proofs.«122869_j29678224016022_1_alg».proof.Proof.Gen.Pre_finite_inputs
import proofs.«122869_j29678224016022_1_alg».proof.Proof.Gen.KernelIdeal.Value
import proofs.«122869_j29678224016022_1_alg».proof.Proof.Gen.ReferenceIdeal.Run
import proofs.«122869_j29678224016022_1_alg».proof.Proof.Gen.ReferenceIdeal.Read
import Idealize.ShloMosaic.Adequacy
import Idealize.ShloMosaic.Init

import proofs.«122869_j29678224016022_1_alg».proof.Proof.KernelProduct
import proofs.«122869_j29678224016022_1_alg».proof.Proof.ReferenceProduct

noncomputable section

namespace Cert.Proof

open Idealize.ShloMosaic Idealize.ShloMosaic.TcCoe Idealize.SL.Sem

/-- The word-level kernel runs, and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the product of rows by rows of x and the reshaped matrix: the kernel block by
    block, the reference by its one contraction. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v1_eq, Cert.ReferenceIdeal.RefValue.result_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
